-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x128 : Shape := ⟨3, ![16, 32, 128]⟩
abbrev S2048x180x128 : Shape := ⟨3, ![2048, 180, 128]⟩
abbrev S_ : Shape := ⟨0, ![]⟩

class Facts : Prop where
  bcast_S_S16x32x128 : S_.BroadcastsInDim S16x32x128 (![] : Fin 0 → Fin S16x32x128.rank)
  reducesTo_S16x32x128_S_d0_1_2 : S16x32x128.ReducesTo [0, 1, 2] S_
  h_S_ : 0 < S_.numel
  bcast_S_S2048x180x128 : S_.BroadcastsInDim S2048x180x128 (![] : Fin 0 → Fin S2048x180x128.rank)
  reducesTo_S2048x180x128_S_d0_1_2 : S2048x180x128.ReducesTo [0, 1, 2] S_

variable [Facts]

def fn {F : FTy → Type} [FloatOps F] (main_arg0 : FVec F S16x32x128 .f32) (main_arg1 : FVec F S2048x180x128 .f32) : IVec S_ 1 :=
  let main_v0 : FVec F S16x32x128 .f32 := Host.absf main_arg0
  let main_cst : FVec F S_ .f32 := constant S_ .f32 0x7F800000#32
  let main_v1 : FVec F S16x32x128 .f32 := broadcastInDim S16x32x128 ![] bcast_S_S16x32x128 main_cst
  let main_v2 : IVec S16x32x128 1 := cmpf .olt main_v0 main_v1
  let main_c : IVec S_ 1 := constantI S_ 1 1#1
  let main_v3 : IVec S_ 1 := (fun x v => Host.reduce IntOp.andi x v reducesTo_S16x32x128_S_d0_1_2 h_S_) main_v2 main_c
  let main_v4 : FVec F S2048x180x128 .f32 := Host.absf main_arg1
  let main_cst_0 : FVec F S_ .f32 := constant S_ .f32 0x7F800000#32
  let main_v5 : FVec F S2048x180x128 .f32 := broadcastInDim S2048x180x128 ![] bcast_S_S2048x180x128 main_cst_0
  let main_v6 : IVec S2048x180x128 1 := cmpf .olt main_v4 main_v5
  let main_c_1 : IVec S_ 1 := constantI S_ 1 1#1
  let main_v7 : IVec S_ 1 := (fun x v => Host.reduce IntOp.andi x v reducesTo_S2048x180x128_S_d0_1_2 h_S_) main_v6 main_c_1
  let main_v8 : IVec S_ 1 := andi main_v3 main_v7
  main_v8
-- ==== Kernel.lean ====
abbrev S16x32x128 : Shape := ⟨3, ![16, 32, 128]⟩
abbrev S2048x180x128 : Shape := ⟨3, ![2048, 180, 128]⟩
abbrev S512x128 : Shape := ⟨2, ![512, 128]⟩
abbrev S16x2048 : Shape := ⟨2, ![16, 2048]⟩
abbrev S128x180x128 : Shape := ⟨3, ![128, 180, 128]⟩
abbrev S16x128 : Shape := ⟨2, ![16, 128]⟩
abbrev S1x180x128 : Shape := ⟨3, ![1, 180, 128]⟩
abbrev S180x128 : Shape := ⟨2, ![180, 128]⟩
abbrev S512x180 : Shape := ⟨2, ![512, 180]⟩
abbrev S16x32x180 : Shape := ⟨3, ![16, 32, 180]⟩
abbrev S16x32 : Shape := ⟨2, ![16, 32]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S16x32x128, .f32⟩
  | .hbm, ⟨1, _⟩ => ⟨S2048x180x128, .f32⟩
  | .hbm, ⟨2, _⟩ => ⟨S512x128, .f32⟩
  | .hbm, ⟨3, _⟩ => ⟨S16x2048, .f32⟩
  | .local _ .vmem, ⟨0, _⟩ => ⟨S512x128, .f32⟩
  | .local _ .vmem, ⟨1, _⟩ => ⟨S128x180x128, .f32⟩
  | .local _ .vmem, ⟨2, _⟩ => ⟨S128x180x128, .f32⟩
  | .local _ .vmem, ⟨3, _⟩ => ⟨S16x128, .f32⟩
  | .local _ .vmem, ⟨4, _⟩ => ⟨S16x128, .f32⟩
  | _, _ => ⟨S16x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x180x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x32x128_S512x128 : S16x32x128.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x180x128_S1x180x128_0_0_0 : ∀ a, (![0, 0, 0] : Fin 3 → Nat) a + S1x180x128.size a ≤ S128x180x128.size a
  h_S1x180x128 : 0 < S1x180x128.numel
  shapeCasts_S1x180x128_S180x128 : S1x180x128.ShapeCasts S180x128
  shapeCasts_S512x180_S16x32x180 : S512x180.ShapeCasts S16x32x180
  reduces_S16x32x180_S16x32 : S16x32x180.Reduces [2] S16x32
  reduces_S16x32_S16 : S16x32.Reduces [1] S16
  inb_S128x180x128_S1x180x128_1_0_0 : ∀ a, (![1, 0, 0] : Fin 3 → Nat) a + S1x180x128.size a ≤ S128x180x128.size a
  inb_S128x180x128_S1x180x128_2_0_0 : ∀ a, (![2, 0, 0] : Fin 3 → Nat) a + S1x180x128.size a ≤ S128x180x128.size a
  inb_S128x180x128_S1x180x128_3_0_0 : ∀ a, (![3, 0, 0] : Fin 3 → Nat) a + S1x180x128.size a ≤ S128x180x128.size a
  inb_S128x180x128_S1x180x128_4_0_0 : ∀ a, (![4, 0, 0] : Fin 3 → Nat) a + S1x180x128.size a ≤ S128x180x128.size a
  inb_S128x180x128_S1x180x128_5_0_0 : ∀ a, (![5, 0, 0] : Fin 3 → Nat) a + S1x180x128.size a ≤ S128x180x128.size a
  inb_S128x180x128_S1x180x128_6_0_0 : ∀ a, (![6, 0, 0] : Fin 3 → Nat) a + S1x180x128.size a ≤ S128x180x128.size a
  inb_S128x180x128_S1x180x128_7_0_0 : ∀ a, (![7, 0, 0] : Fin 3 → Nat) a + S1x180x128.size a ≤ S128x180x128.size a
  inb_S128x180x128_S1x180x128_8_0_0 : ∀ a, (![8, 0, 0] : Fin 3 → Nat) a + S1x180x128.size a ≤ S128x180x128.size a
  inb_S128x180x128_S1x180x128_9_0_0 : ∀ a, (![9, 0, 0] : Fin 3 → Nat) a + S1x180x128.size a ≤ S128x180x128.size a
  inb_S128x180x128_S1x180x128_10_0_0 : ∀ a, (![10, 0, 0] : Fin 3 → Nat) a + S1x180x128.size a ≤ S128x180x128.size a
  inb_S128x180x128_S1x180x128_11_0_0 : ∀ a, (![11, 0, 0] : Fin 3 → Nat) a + S1x180x128.size a ≤ S128x180x128.size a
  inb_S128x180x128_S1x180x128_12_0_0 : ∀ a, (![12, 0, 0] : Fin 3 → Nat) a + S1x180x128.size a ≤ S128x180x128.size a
  inb_S128x180x128_S1x180x128_13_0_0 : ∀ a, (![13, 0, 0] : Fin 3 → Nat) a + S1x180x128.size a ≤ S128x180x128.size a
  inb_S128x180x128_S1x180x128_14_0_0 : ∀ a, (![14, 0, 0] : Fin 3 → Nat) a + S1x180x128.size a ≤ S128x180x128.size a
  inb_S128x180x128_S1x180x128_15_0_0 : ∀ a, (![15, 0, 0] : Fin 3 → Nat) a + S1x180x128.size a ≤ S128x180x128.size a
  inb_S128x180x128_S1x180x128_16_0_0 : ∀ a, (![16, 0, 0] : Fin 3 → Nat) a + S1x180x128.size a ≤ S128x180x128.size a
  inb_S128x180x128_S1x180x128_17_0_0 : ∀ a, (![17, 0, 0] : Fin 3 → Nat) a + S1x180x128.size a ≤ S128x180x128.size a
  inb_S128x180x128_S1x180x128_18_0_0 : ∀ a, (![18, 0, 0] : Fin 3 → Nat) a + S1x180x128.size a ≤ S128x180x128.size a
  inb_S128x180x128_S1x180x128_19_0_0 : ∀ a, (![19, 0, 0] : Fin 3 → Nat) a + S1x180x128.size a ≤ S128x180x128.size a
  inb_S128x180x128_S1x180x128_20_0_0 : ∀ a, (![20, 0, 0] : Fin 3 → Nat) a + S1x180x128.size a ≤ S128x180x128.size a
  inb_S128x180x128_S1x180x128_21_0_0 : ∀ a, (![21, 0, 0] : Fin 3 → Nat) a + S1x180x128.size a ≤ S128x180x128.size a
  inb_S128x180x128_S1x180x128_22_0_0 : ∀ a, (![22, 0, 0] : Fin 3 → Nat) a + S1x180x128.size a ≤ S128x180x128.size a
  inb_S128x180x128_S1x180x128_23_0_0 : ∀ a, (![23, 0, 0] : Fin 3 → Nat) a + S1x180x128.size a ≤ S128x180x128.size a
  inb_S128x180x128_S1x180x128_24_0_0 : ∀ a, (![24, 0, 0] : Fin 3 → Nat) a + S1x180x128.size a ≤ S128x180x128.size a
  inb_S128x180x128_S1x180x128_25_0_0 : ∀ a, (![25, 0, 0] : Fin 3 → Nat) a + S1x180x128.size a ≤ S128x180x128.size a
  inb_S128x180x128_S1x180x128_26_0_0 : ∀ a, (![26, 0, 0] : Fin 3 → Nat) a + S1x180x128.size a ≤ S128x180x128.size a
  inb_S128x180x128_S1x180x128_27_0_0 : ∀ a, (![27, 0, 0] : Fin 3 → Nat) a + S1x180x128.size a ≤ S128x180x128.size a
  inb_S128x180x128_S1x180x128_28_0_0 : ∀ a, (![28, 0, 0] : Fin 3 → Nat) a + S1x180x128.size a ≤ S128x180x128.size a
  inb_S128x180x128_S1x180x128_29_0_0 : ∀ a, (![29, 0, 0] : Fin 3 → Nat) a + S1x180x128.size a ≤ S128x180x128.size a
  inb_S128x180x128_S1x180x128_30_0_0 : ∀ a, (![30, 0, 0] : Fin 3 → Nat) a + S1x180x128.size a ≤ S128x180x128.size a
  inb_S128x180x128_S1x180x128_31_0_0 : ∀ a, (![31, 0, 0] : Fin 3 → Nat) a + S1x180x128.size a ≤ S128x180x128.size a
  inb_S128x180x128_S1x180x128_32_0_0 : ∀ a, (![32, 0, 0] : Fin 3 → Nat) a + S1x180x128.size a ≤ S128x180x128.size a
  inb_S128x180x128_S1x180x128_33_0_0 : ∀ a, (![33, 0, 0] : Fin 3 → Nat) a + S1x180x128.size a ≤ S128x180x128.size a
  inb_S128x180x128_S1x180x128_34_0_0 : ∀ a, (![34, 0, 0] : Fin 3 → Nat) a + S1x180x128.size a ≤ S128x180x128.size a
  inb_S128x180x128_S1x180x128_35_0_0 : ∀ a, (![35, 0, 0] : Fin 3 → Nat) a + S1x180x128.size a ≤ S128x180x128.size a
  inb_S128x180x128_S1x180x128_36_0_0 : ∀ a, (![36, 0, 0] : Fin 3 → Nat) a + S1x180x128.size a ≤ S128x180x128.size a
  inb_S128x180x128_S1x180x128_37_0_0 : ∀ a, (![37, 0, 0] : Fin 3 → Nat) a + S1x180x128.size a ≤ S128x180x128.size a
  inb_S128x180x128_S1x180x128_38_0_0 : ∀ a, (![38, 0, 0] : Fin 3 → Nat) a + S1x180x128.size a ≤ S128x180x128.size a
  inb_S128x180x128_S1x180x128_39_0_0 : ∀ a, (![39, 0, 0] : Fin 3 → Nat) a + S1x180x128.size a ≤ S128x180x128.size a
  inb_S128x180x128_S1x180x128_40_0_0 : ∀ a, (![40, 0, 0] : Fin 3 → Nat) a + S1x180x128.size a ≤ S128x180x128.size a
  inb_S128x180x128_S1x180x128_41_0_0 : ∀ a, (![41, 0, 0] : Fin 3 → Nat) a + S1x180x128.size a ≤ S128x180x128.size a
  inb_S128x180x128_S1x180x128_42_0_0 : ∀ a, (![42, 0, 0] : Fin 3 → Nat) a + S1x180x128.size a ≤ S128x180x128.size a
  inb_S128x180x128_S1x180x128_43_0_0 : ∀ a, (![43, 0, 0] : Fin 3 → Nat) a + S1x180x128.size a ≤ S128x180x128.size a
  inb_S128x180x128_S1x180x128_44_0_0 : ∀ a, (![44, 0, 0] : Fin 3 → Nat) a + S1x180x128.size a ≤ S128x180x128.size a
  inb_S128x180x128_S1x180x128_45_0_0 : ∀ a, (![45, 0, 0] : Fin 3 → Nat) a + S1x180x128.size a ≤ S128x180x128.size a
  inb_S128x180x128_S1x180x128_46_0_0 : ∀ a, (![46, 0, 0] : Fin 3 → Nat) a + S1x180x128.size a ≤ S128x180x128.size a
  inb_S128x180x128_S1x180x128_47_0_0 : ∀ a, (![47, 0, 0] : Fin 3 → Nat) a + S1x180x128.size a ≤ S128x180x128.size a
  inb_S128x180x128_S1x180x128_48_0_0 : ∀ a, (![48, 0, 0] : Fin 3 → Nat) a + S1x180x128.size a ≤ S128x180x128.size a
  inb_S128x180x128_S1x180x128_49_0_0 : ∀ a, (![49, 0, 0] : Fin 3 → Nat) a + S1x180x128.size a ≤ S128x180x128.size a
  inb_S128x180x128_S1x180x128_50_0_0 : ∀ a, (![50, 0, 0] : Fin 3 → Nat) a + S1x180x128.size a ≤ S128x180x128.size a
  inb_S128x180x128_S1x180x128_51_0_0 : ∀ a, (![51, 0, 0] : Fin 3 → Nat) a + S1x180x128.size a ≤ S128x180x128.size a
  inb_S128x180x128_S1x180x128_52_0_0 : ∀ a, (![52, 0, 0] : Fin 3 → Nat) a + S1x180x128.size a ≤ S128x180x128.size a
  inb_S128x180x128_S1x180x128_53_0_0 : ∀ a, (![53, 0, 0] : Fin 3 → Nat) a + S1x180x128.size a ≤ S128x180x128.size a
  inb_S128x180x128_S1x180x128_54_0_0 : ∀ a, (![54, 0, 0] : Fin 3 → Nat) a + S1x180x128.size a ≤ S128x180x128.size a
  inb_S128x180x128_S1x180x128_55_0_0 : ∀ a, (![55, 0, 0] : Fin 3 → Nat) a + S1x180x128.size a ≤ S128x180x128.size a
  inb_S128x180x128_S1x180x128_56_0_0 : ∀ a, (![56, 0, 0] : Fin 3 → Nat) a + S1x180x128.size a ≤ S128x180x128.size a
  inb_S128x180x128_S1x180x128_57_0_0 : ∀ a, (![57, 0, 0] : Fin 3 → Nat) a + S1x180x128.size a ≤ S128x180x128.size a
  inb_S128x180x128_S1x180x128_58_0_0 : ∀ a, (![58, 0, 0] : Fin 3 → Nat) a + S1x180x128.size a ≤ S128x180x128.size a
  inb_S128x180x128_S1x180x128_59_0_0 : ∀ a, (![59, 0, 0] : Fin 3 → Nat) a + S1x180x128.size a ≤ S128x180x128.size a
  inb_S128x180x128_S1x180x128_60_0_0 : ∀ a, (![60, 0, 0] : Fin 3 → Nat) a + S1x180x128.size a ≤ S128x180x128.size a
  inb_S128x180x128_S1x180x128_61_0_0 : ∀ a, (![61, 0, 0] : Fin 3 → Nat) a + S1x180x128.size a ≤ S128x180x128.size a
  inb_S128x180x128_S1x180x128_62_0_0 : ∀ a, (![62, 0, 0] : Fin 3 → Nat) a + S1x180x128.size a ≤ S128x180x128.size a
  inb_S128x180x128_S1x180x128_63_0_0 : ∀ a, (![63, 0, 0] : Fin 3 → Nat) a + S1x180x128.size a ≤ S128x180x128.size a
  inb_S128x180x128_S1x180x128_64_0_0 : ∀ a, (![64, 0, 0] : Fin 3 → Nat) a + S1x180x128.size a ≤ S128x180x128.size a
  inb_S128x180x128_S1x180x128_65_0_0 : ∀ a, (![65, 0, 0] : Fin 3 → Nat) a + S1x180x128.size a ≤ S128x180x128.size a
  inb_S128x180x128_S1x180x128_66_0_0 : ∀ a, (![66, 0, 0] : Fin 3 → Nat) a + S1x180x128.size a ≤ S128x180x128.size a
  inb_S128x180x128_S1x180x128_67_0_0 : ∀ a, (![67, 0, 0] : Fin 3 → Nat) a + S1x180x128.size a ≤ S128x180x128.size a
  inb_S128x180x128_S1x180x128_68_0_0 : ∀ a, (![68, 0, 0] : Fin 3 → Nat) a + S1x180x128.size a ≤ S128x180x128.size a
  inb_S128x180x128_S1x180x128_69_0_0 : ∀ a, (![69, 0, 0] : Fin 3 → Nat) a + S1x180x128.size a ≤ S128x180x128.size a
  inb_S128x180x128_S1x180x128_70_0_0 : ∀ a, (![70, 0, 0] : Fin 3 → Nat) a + S1x180x128.size a ≤ S128x180x128.size a
  inb_S128x180x128_S1x180x128_71_0_0 : ∀ a, (![71, 0, 0] : Fin 3 → Nat) a + S1x180x128.size a ≤ S128x180x128.size a
  inb_S128x180x128_S1x180x128_72_0_0 : ∀ a, (![72, 0, 0] : Fin 3 → Nat) a + S1x180x128.size a ≤ S128x180x128.size a
  inb_S128x180x128_S1x180x128_73_0_0 : ∀ a, (![73, 0, 0] : Fin 3 → Nat) a + S1x180x128.size a ≤ S128x180x128.size a
  inb_S128x180x128_S1x180x128_74_0_0 : ∀ a, (![74, 0, 0] : Fin 3 → Nat) a + S1x180x128.size a ≤ S128x180x128.size a
  inb_S128x180x128_S1x180x128_75_0_0 : ∀ a, (![75, 0, 0] : Fin 3 → Nat) a + S1x180x128.size a ≤ S128x180x128.size a
  inb_S128x180x128_S1x180x128_76_0_0 : ∀ a, (![76, 0, 0] : Fin 3 → Nat) a + S1x180x128.size a ≤ S128x180x128.size a
  inb_S128x180x128_S1x180x128_77_0_0 : ∀ a, (![77, 0, 0] : Fin 3 → Nat) a + S1x180x128.size a ≤ S128x180x128.size a
  inb_S128x180x128_S1x180x128_78_0_0 : ∀ a, (![78, 0, 0] : Fin 3 → Nat) a + S1x180x128.size a ≤ S128x180x128.size a
  inb_S128x180x128_S1x180x128_79_0_0 : ∀ a, (![79, 0, 0] : Fin 3 → Nat) a + S1x180x128.size a ≤ S128x180x128.size a
  inb_S128x180x128_S1x180x128_80_0_0 : ∀ a, (![80, 0, 0] : Fin 3 → Nat) a + S1x180x128.size a ≤ S128x180x128.size a
  inb_S128x180x128_S1x180x128_81_0_0 : ∀ a, (![81, 0, 0] : Fin 3 → Nat) a + S1x180x128.size a ≤ S128x180x128.size a
  inb_S128x180x128_S1x180x128_82_0_0 : ∀ a, (![82, 0, 0] : Fin 3 → Nat) a + S1x180x128.size a ≤ S128x180x128.size a
  inb_S128x180x128_S1x180x128_83_0_0 : ∀ a, (![83, 0, 0] : Fin 3 → Nat) a + S1x180x128.size a ≤ S128x180x128.size a
  inb_S128x180x128_S1x180x128_84_0_0 : ∀ a, (![84, 0, 0] : Fin 3 → Nat) a + S1x180x128.size a ≤ S128x180x128.size a
  inb_S128x180x128_S1x180x128_85_0_0 : ∀ a, (![85, 0, 0] : Fin 3 → Nat) a + S1x180x128.size a ≤ S128x180x128.size a
  inb_S128x180x128_S1x180x128_86_0_0 : ∀ a, (![86, 0, 0] : Fin 3 → Nat) a + S1x180x128.size a ≤ S128x180x128.size a
  inb_S128x180x128_S1x180x128_87_0_0 : ∀ a, (![87, 0, 0] : Fin 3 → Nat) a + S1x180x128.size a ≤ S128x180x128.size a
  inb_S128x180x128_S1x180x128_88_0_0 : ∀ a, (![88, 0, 0] : Fin 3 → Nat) a + S1x180x128.size a ≤ S128x180x128.size a
  inb_S128x180x128_S1x180x128_89_0_0 : ∀ a, (![89, 0, 0] : Fin 3 → Nat) a + S1x180x128.size a ≤ S128x180x128.size a
  inb_S128x180x128_S1x180x128_90_0_0 : ∀ a, (![90, 0, 0] : Fin 3 → Nat) a + S1x180x128.size a ≤ S128x180x128.size a
  inb_S128x180x128_S1x180x128_91_0_0 : ∀ a, (![91, 0, 0] : Fin 3 → Nat) a + S1x180x128.size a ≤ S128x180x128.size a
  inb_S128x180x128_S1x180x128_92_0_0 : ∀ a, (![92, 0, 0] : Fin 3 → Nat) a + S1x180x128.size a ≤ S128x180x128.size a
  inb_S128x180x128_S1x180x128_93_0_0 : ∀ a, (![93, 0, 0] : Fin 3 → Nat) a + S1x180x128.size a ≤ S128x180x128.size a
  inb_S128x180x128_S1x180x128_94_0_0 : ∀ a, (![94, 0, 0] : Fin 3 → Nat) a + S1x180x128.size a ≤ S128x180x128.size a
  inb_S128x180x128_S1x180x128_95_0_0 : ∀ a, (![95, 0, 0] : Fin 3 → Nat) a + S1x180x128.size a ≤ S128x180x128.size a
  inb_S128x180x128_S1x180x128_96_0_0 : ∀ a, (![96, 0, 0] : Fin 3 → Nat) a + S1x180x128.size a ≤ S128x180x128.size a
  inb_S128x180x128_S1x180x128_97_0_0 : ∀ a, (![97, 0, 0] : Fin 3 → Nat) a + S1x180x128.size a ≤ S128x180x128.size a
  inb_S128x180x128_S1x180x128_98_0_0 : ∀ a, (![98, 0, 0] : Fin 3 → Nat) a + S1x180x128.size a ≤ S128x180x128.size a
  inb_S128x180x128_S1x180x128_99_0_0 : ∀ a, (![99, 0, 0] : Fin 3 → Nat) a + S1x180x128.size a ≤ S128x180x128.size a
  inb_S128x180x128_S1x180x128_100_0_0 : ∀ a, (![100, 0, 0] : Fin 3 → Nat) a + S1x180x128.size a ≤ S128x180x128.size a
  inb_S128x180x128_S1x180x128_101_0_0 : ∀ a, (![101, 0, 0] : Fin 3 → Nat) a + S1x180x128.size a ≤ S128x180x128.size a
  inb_S128x180x128_S1x180x128_102_0_0 : ∀ a, (![102, 0, 0] : Fin 3 → Nat) a + S1x180x128.size a ≤ S128x180x128.size a
  inb_S128x180x128_S1x180x128_103_0_0 : ∀ a, (![103, 0, 0] : Fin 3 → Nat) a + S1x180x128.size a ≤ S128x180x128.size a
  inb_S128x180x128_S1x180x128_104_0_0 : ∀ a, (![104, 0, 0] : Fin 3 → Nat) a + S1x180x128.size a ≤ S128x180x128.size a
  inb_S128x180x128_S1x180x128_105_0_0 : ∀ a, (![105, 0, 0] : Fin 3 → Nat) a + S1x180x128.size a ≤ S128x180x128.size a
  inb_S128x180x128_S1x180x128_106_0_0 : ∀ a, (![106, 0, 0] : Fin 3 → Nat) a + S1x180x128.size a ≤ S128x180x128.size a
  inb_S128x180x128_S1x180x128_107_0_0 : ∀ a, (![107, 0, 0] : Fin 3 → Nat) a + S1x180x128.size a ≤ S128x180x128.size a
  inb_S128x180x128_S1x180x128_108_0_0 : ∀ a, (![108, 0, 0] : Fin 3 → Nat) a + S1x180x128.size a ≤ S128x180x128.size a
  inb_S128x180x128_S1x180x128_109_0_0 : ∀ a, (![109, 0, 0] : Fin 3 → Nat) a + S1x180x128.size a ≤ S128x180x128.size a
  inb_S128x180x128_S1x180x128_110_0_0 : ∀ a, (![110, 0, 0] : Fin 3 → Nat) a + S1x180x128.size a ≤ S128x180x128.size a
  inb_S128x180x128_S1x180x128_111_0_0 : ∀ a, (![111, 0, 0] : Fin 3 → Nat) a + S1x180x128.size a ≤ S128x180x128.size a
  inb_S128x180x128_S1x180x128_112_0_0 : ∀ a, (![112, 0, 0] : Fin 3 → Nat) a + S1x180x128.size a ≤ S128x180x128.size a
  inb_S128x180x128_S1x180x128_113_0_0 : ∀ a, (![113, 0, 0] : Fin 3 → Nat) a + S1x180x128.size a ≤ S128x180x128.size a
  inb_S128x180x128_S1x180x128_114_0_0 : ∀ a, (![114, 0, 0] : Fin 3 → Nat) a + S1x180x128.size a ≤ S128x180x128.size a
  inb_S128x180x128_S1x180x128_115_0_0 : ∀ a, (![115, 0, 0] : Fin 3 → Nat) a + S1x180x128.size a ≤ S128x180x128.size a
  inb_S128x180x128_S1x180x128_116_0_0 : ∀ a, (![116, 0, 0] : Fin 3 → Nat) a + S1x180x128.size a ≤ S128x180x128.size a
  inb_S128x180x128_S1x180x128_117_0_0 : ∀ a, (![117, 0, 0] : Fin 3 → Nat) a + S1x180x128.size a ≤ S128x180x128.size a
  inb_S128x180x128_S1x180x128_118_0_0 : ∀ a, (![118, 0, 0] : Fin 3 → Nat) a + S1x180x128.size a ≤ S128x180x128.size a
  inb_S128x180x128_S1x180x128_119_0_0 : ∀ a, (![119, 0, 0] : Fin 3 → Nat) a + S1x180x128.size a ≤ S128x180x128.size a
  inb_S128x180x128_S1x180x128_120_0_0 : ∀ a, (![120, 0, 0] : Fin 3 → Nat) a + S1x180x128.size a ≤ S128x180x128.size a
  inb_S128x180x128_S1x180x128_121_0_0 : ∀ a, (![121, 0, 0] : Fin 3 → Nat) a + S1x180x128.size a ≤ S128x180x128.size a
  inb_S128x180x128_S1x180x128_122_0_0 : ∀ a, (![122, 0, 0] : Fin 3 → Nat) a + S1x180x128.size a ≤ S128x180x128.size a
  inb_S128x180x128_S1x180x128_123_0_0 : ∀ a, (![123, 0, 0] : Fin 3 → Nat) a + S1x180x128.size a ≤ S128x180x128.size a
  inb_S128x180x128_S1x180x128_124_0_0 : ∀ a, (![124, 0, 0] : Fin 3 → Nat) a + S1x180x128.size a ≤ S128x180x128.size a
  inb_S128x180x128_S1x180x128_125_0_0 : ∀ a, (![125, 0, 0] : Fin 3 → Nat) a + S1x180x128.size a ≤ S128x180x128.size a
  inb_S128x180x128_S1x180x128_126_0_0 : ∀ a, (![126, 0, 0] : Fin 3 → Nat) a + S1x180x128.size a ≤ S128x180x128.size a
  inb_S128x180x128_S1x180x128_127_0_0 : ∀ a, (![127, 0, 0] : Fin 3 → Nat) a + S1x180x128.size a ≤ S128x180x128.size a
  shapeCasts_S16_S16x1 : S16.ShapeCasts S16x1
  concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x128_d1 : Shape.Concatenates (S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: S16x1 :: []) S16x128 1
  inb_S16x128_S16x128_0_0 : ∀ a, (![0, 0] : Fin 2 → Nat) a + S16x128.size a ≤ S16x128.size a
  h_S16x128 : 0 < S16x128.numel
  dot_S512x128_S180x128_S512x180_1_1_0_0_n_n_wf : DotDims.WF S512x128 S180x128 S512x180 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x180x128.size a ≤ S2048x180x128.size a
  hwx0_1 : ∀ i : grid0.Coords, EltTy.bits .f32 = 32 ∨ (Rect.block (s := S2048x180x128) S128x180x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x2048.size a
  hwx0_2 : ∀ i : grid0.Coords, EltTy.bits .f32 = 32 ∨ (Rect.block (s := S16x2048) S16x128.size (cc0_transform_2 i) (hinb0_2 i)).WholeWords (EltTy.packing .f32)

variable [Facts₀]

def dot_S512x128_S180x128_S512x180_1_1_0_0_n_n : DotDims S512x128 S180x128 S512x180 where
  lhsContracting := [1]
  rhsContracting := [1]
  lhsNonContracting := [0]
  rhsNonContracting := [0]
  lhsBatch := []
  rhsBatch := []
  wf := dot_S512x128_S180x128_S512x180_1_1_0_0_n_n_wf

abbrev win0_0 : Pipeline.Window sig grid0 :=
  Pipeline.Window.ofSpec (Memref.whole main_v0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x180x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x128 : Shape := ⟨3, ![16, 32, 128]⟩
abbrev S2048x180x128 : Shape := ⟨3, ![2048, 180, 128]⟩
abbrev S2048x180x16x32 : Shape := ⟨4, ![2048, 180, 16, 32]⟩
abbrev S16x2048x32x180 : Shape := ⟨4, ![16, 2048, 32, 180]⟩
abbrev S_ : Shape := ⟨0, ![]⟩
abbrev S16x2048x32 : Shape := ⟨3, ![16, 2048, 32]⟩
abbrev S16x2048 : Shape := ⟨2, ![16, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16x32x128, .f32⟩
  | .hbm, ⟨1, _⟩ => ⟨S2048x180x128, .f32⟩
  | .hbm, ⟨2, _⟩ => ⟨S2048x180x16x32, .f32⟩
  | .hbm, ⟨3, _⟩ => ⟨S16x2048x32x180, .f32⟩
  | .hbm, ⟨4, _⟩ => ⟨S_, .f32⟩
  | .hbm, ⟨5, _⟩ => ⟨S16x2048x32, .f32⟩
  | .hbm, ⟨6, _⟩ => ⟨S_, .f32⟩
  | .hbm, ⟨7, _⟩ => ⟨S16x2048, .f32⟩
  | _, _ => ⟨S16x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S2048x180x16x32_S16x2048x32x180_2_0_3_1 : S2048x180x16x32.Transposes [2, 0, 3, 1] S16x2048x32x180
  reducesTo_S16x2048x32x180_S16x2048x32_d3 : S16x2048x32x180.ReducesTo [3] S16x2048x32
  h_S_ : 0 < S_.numel
  reducesTo_S16x2048x32_S16x2048_d2 : S16x2048x32.ReducesTo [2] S16x2048
  dot_S2048x180x128_S16x32x128_S2048x180x16x32_2_2_01_01_n_n_wf : DotDims.WF S2048x180x128 S16x32x128 S2048x180x16x32 [2] [2] [0, 1] [0, 1] [] []

variable [Facts₀]

def dot_S2048x180x128_S16x32x128_S2048x180x16x32_2_2_01_01_n_n : DotDims S2048x180x128 S16x32x128 S2048x180x16x32 where
  lhsContracting := [2]
  rhsContracting := [2]
  lhsNonContracting := [0, 1]
  rhsNonContracting := [0, 1]
  lhsBatch := []
  rhsBatch := []
  wf := dot_S2048x180x128_S16x32x128_S2048x180x16x32_2_2_01_01_n_n_wf

class Facts : Prop extends Facts₀ where

variable [Facts]
-- ==== Proof.LibKeepdims.lean ====
/-
  The keepdims column forms of a row reduction, read at an index: a vector `[a]` cast to the column `[a, 1]`, and a
  column `[a, 1]` broadcast along the lanes to `[a, b]` (what `jnp.sum(x, axis=-1, keepdims=True)` followed by a
  broadcast against `[a, b]` lowers to in a kernel body). General in the extents and the element type.
-/
import Idealize.ShloMosaic.Lib.Pipeline.Value
import Idealize.ShloMosaic.Lib.ValueIdx

namespace Cert.LibKeepdims

open Idealize.ShloMosaic Idealize.ShloMosaic.ValueIdx

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.DocColumn.lean ====
/-
  What the kernel body leaves in its output block, column by column. At one grid step the body holds the 512 query
  token rows (16 queries × 32 tokens, cast to bf16 once) and a tile of 128 documents. For every document of the tile it
  does the same seven operations — take the document's 180 × 128 token rows, cast them to bf16, multiply the 512 query
  rows into them (one 512 × 180 matrix of inner products from a zero accumulator), view that as 16 × 32 × 180, take
  the maximum over the 180 document tokens, add over the 32 query tokens — and gets 16 numbers, one per query. The 128
  vectors of 16 are stood up as columns and joined along the lanes: entry (q, t) of the block is document t's number
  for query q.

  The body is printed unrolled, so the 128 documents are 128 separate terms. `docScore` below is the one function
  they all are; `out_apply` says so at every entry of the block. The identification is by cases on the column — 128
  of them, each closing by unfolding, since the printed term for a column is literally `docScore` of the query rows
  and of that document's rows, cast to a column.
-/
import proofs.«158030_j63239098466666_1_alg».proof.Proof.KernelIdealValue
import proofs.«158030_j63239098466666_1_alg».proof.Proof.LibKeepdims
import Idealize.ShloMosaic.Lib.ValueIdx
import Mathlib.Tactic.FinCases

set_option maxRecDepth 16384

noncomputable section

namespace Cert.KernelIdeal.Column

open Cert.KernelIdeal Cert.KernelIdeal.Gen Idealize.ShloMosaic Idealize.ShloMosaic.ValueIdx

variable {F : FTy → Type} [FloatOps F]

/-- One document against all the queries: from the 512 query token rows `qb` (bf16) and the document's tile row `d`
    (`[1, 180, 128]`), the 16 sums over a query's 32 tokens of the token's largest inner product with the document's 180
    tokens. The operations, their order and their side-condition evidence are the body's own. -/
def docScore (qb : FVec F S512x128 .bf16) (d : Vec F S1x180x128 .f32) : FVec F S16 .f32 :=
  multiReduction .add [1] S16
    (multiReduction .maximumf [2] S16x32
      (shapeCast S16x32x180
        (matmul dot_S512x128_S180x128_S512x180_1_1_0_0_n_n none qb
          (truncf .bf16 (shapeCast S180x128 d shapeCasts_S1x180x128_S180x128) bitsLt_bf16_f32)
          (constant S512x180 .f32 0x00000000#32))
        shapeCasts_S512x180_S16x32x180)
      0xFF800000#32 reduces_S16x32x180_S16x32 (.inl rfl) rfl)
    0x00000000#32 reduces_S16x32_S16 (.inl rfl) rfl

/-- Row `t` of the document tile lies inside the tile. -/
theorem docRect_inb (t : Fin 128) : ∀ a, (![t.val, 0, 0] : Fin 3 → Nat) a + S1x180x128.size a ≤ S128x180x128.size a := by
  intro a
  have := t.isLt
  match a with
  | ⟨0, _⟩ => show t.val + 1 ≤ 128; omega
  | ⟨1, _⟩ => show 0 + 180 ≤ 180; omega
  | ⟨2, _⟩ => show 0 + 128 ≤ 128; omega

/-- The rectangle of the document tile that holds document `t`: one row of the leading axis, all of the other two. -/
abbrev docRect (t : Fin 128) : Rect S128x180x128 :=
  Rect.unit (s := S128x180x128) ![t.val, 0, 0] S1x180x128.size (docRect_inb t)

/-- ENTRY (q, t) OF THE BLOCK the body leaves is document `t`'s number for query `q`: `docScore` of the query rows
    (loaded whole, cast once) and of row `t` of the tile. -/
theorem out_apply (x0 : Vec F S512x128 .f32) (x1 : Vec F S128x180x128 .f32) (q : Fin 16) (t : Fin 128) :
    out0_2 x0 x1 (ix2 q t) = docScore (k0_pay1 (View.ld x0 r0_0)) (View.ld x1 (docRect t)) (ix1 q) := by
  unfold out0_2
  rw [ValueP.canon2_eq]
  -- the column of the entry names the document, and inside the column the entry sits at (q, 0)
  have hc : ValueP.csel2_0 (ix2 q t) = t := Fin.ext rfl
  have hi : ValueP.ix2_0 (ix2 q t) = ix2 q (0 : Fin 1) := funext fun a => by
    match a with
    | ⟨0, _⟩ => rfl
    | ⟨1, _⟩ => rfl
  dsimp only [ValueP.E2]
  rw [hc, hi]
  clear hc hi
  -- document by document: the column is `docScore` stood up as a column, read at (q, 0)
  fin_cases t <;> exact Cert.LibKeepdims.shapeCast_a_a1_apply _ _ q 0

end Cert.KernelIdeal.Column

end
-- ==== Proof.DocValue.lean ====
/-
  One document's 16 numbers, read over the extended reals. With floats as exact extended reals the cast to bf16 is the
  identity, the matrix product from a zero accumulator is the plain sum of products over the 128 features, the lane
  maximum from −∞ is the fold of `max` over the 180 document tokens, and the sum from zero over a query's 32 tokens is
  the plain sum. Query token `mm` of query `q` is row `32 q + mm` of the 512 query rows: that is what viewing the
  512 × 180 matrix of inner products as 16 × 32 × 180 means, both being row-major.
-/
import proofs.«158030_j63239098466666_1_alg».proof.Proof.DocColumn
import Idealize.ShloMosaic.PureOps.Ideal.Laws
import Idealize.ShloMosaic.Lib.Pipeline.Value
import Idealize.ShloMosaic.Lib.ValueIdx

noncomputable section

namespace Cert.KernelIdeal.Column

open Cert.KernelIdeal Cert.KernelIdeal.Gen Idealize.ShloMosaic Idealize.ShloMosaic.ValueIdx

/-! ## The matrix product at an entry

The product contracts axis 1 of the query rows `[512, 128]` with axis 1 of the document's rows `[180, 128]`; entry
(r, s) of the result `[512, 180]` reads row r of the one and row s of the other. -/

theorem lhs_axis0 (i : S512x180.Idx) (k : dot_S512x128_S180x128_S512x180_1_1_0_0_n_n.contr.Idx) :
    (dot_S512x128_S180x128_S512x180_1_1_0_0_n_n.lhsIdx i k 0).val = (i 0).val := by
  unfold DotDims.lhsIdx
  rw [dif_neg (show ¬(0 : Fin S512x128.rank) ∈ dot_S512x128_S180x128_S512x180_1_1_0_0_n_n.lhsBatch by decide), dif_pos (show (0 : Fin S512x128.rank) ∈ dot_S512x128_S180x128_S512x180_1_1_0_0_n_n.lhsNonContracting by decide)]
  rfl
theorem lhs_axis1 (i : S512x180.Idx) (k : dot_S512x128_S180x128_S512x180_1_1_0_0_n_n.contr.Idx) :
    (dot_S512x128_S180x128_S512x180_1_1_0_0_n_n.lhsIdx i k 1).val = (k ⟨0, by decide⟩).val :=
  dot_S512x128_S180x128_S512x180_1_1_0_0_n_n.lhsIdx_val_of_single rfl i k
theorem rhs_axis0 (i : S512x180.Idx) (k : dot_S512x128_S180x128_S512x180_1_1_0_0_n_n.contr.Idx) :
    (dot_S512x128_S180x128_S512x180_1_1_0_0_n_n.rhsIdx i k 0).val = (i 1).val := by
  unfold DotDims.rhsIdx
  rw [dif_neg (show ¬(0 : Fin S180x128.rank) ∈ dot_S512x128_S180x128_S512x180_1_1_0_0_n_n.rhsBatch by decide), dif_pos (show (0 : Fin S180x128.rank) ∈ dot_S512x128_S180x128_S512x180_1_1_0_0_n_n.rhsNonContracting by decide)]
  rfl
theorem rhs_axis1 (i : S512x180.Idx) (k : dot_S512x128_S180x128_S512x180_1_1_0_0_n_n.contr.Idx) :
    (dot_S512x128_S180x128_S512x180_1_1_0_0_n_n.rhsIdx i k 1).val = (k ⟨0, by decide⟩).val :=
  dot_S512x128_S180x128_S512x180_1_1_0_0_n_n.rhsIdx_val_of_single rfl i k

/-- Entry (r, s) of the product of the query rows with the document's rows, from a zero accumulator: the inner product
    of query row `r` with document row `s` over the 128 features. -/
theorem product_apply (qb : FVec Ideal S512x128 .bf16) (db : FVec Ideal S180x128 .bf16) (r : Fin 512) (s : Fin 180) :
    matmul dot_S512x128_S180x128_S512x180_1_1_0_0_n_n none qb db (constant (F := Ideal) S512x180 .f32 0x00000000#32) (ix2 r s)
      = ∑ dd : Fin 128, qb (ix2 r dd) * db (ix2 s dd) := by
  refine (Ideal.matmul_constant_zero_apply dot_S512x128_S180x128_S512x180_1_1_0_0_n_n none qb db (ix2 r s)).trans ?_
  rw [← Equiv.sum_comp (ValueIdx.contrEquiv1 dot_S512x128_S180x128_S512x180_1_1_0_0_n_n 128 rfl rfl).symm]
  refine Finset.sum_congr rfl fun k _ => ?_
  have hk := ValueIdx.contrEquiv1_symm_val dot_S512x128_S180x128_S512x180_1_1_0_0_n_n 128 rfl rfl k
  have el : dot_S512x128_S180x128_S512x180_1_1_0_0_n_n.lhsIdx (ix2 r s) ((ValueIdx.contrEquiv1 dot_S512x128_S180x128_S512x180_1_1_0_0_n_n 128 rfl rfl).symm k) = ix2 r k := funext fun a => Fin.ext (by
    match a with
    | ⟨0, _⟩ => exact lhs_axis0 _ _
    | ⟨1, _⟩ => exact (lhs_axis1 _ _).trans hk)
  have er : dot_S512x128_S180x128_S512x180_1_1_0_0_n_n.rhsIdx (ix2 r s) ((ValueIdx.contrEquiv1 dot_S512x128_S180x128_S512x180_1_1_0_0_n_n 128 rfl rfl).symm k) = ix2 s k := funext fun a => Fin.ext (by
    match a with
    | ⟨0, _⟩ => exact rhs_axis0 _ _
    | ⟨1, _⟩ => exact (rhs_axis1 _ _).trans hk)
  rw [el, er]

/-! ## The views -/

/-- The 512 × 180 matrix viewed as 16 × 32 × 180: entry (q, mm, s) is entry (32 q + mm, s). -/
theorem tokens_view_apply (M : FVec Ideal S512x180 .f32) (q : Fin 16) (mm : Fin 32) (s : Fin 180) :
    shapeCast S16x32x180 M shapeCasts_S512x180_S16x32x180 (ix3 q mm s) = M (ix2 ⟨q.val * 32 + mm.val, by omega⟩ s) :=
  shapeCast_apply M shapeCasts_S512x180_S16x32x180 (ix3 q mm s) (ix2 ⟨q.val * 32 + mm.val, by omega⟩ s) (by
    rw [Shape.rowMajor_val_two, Shape.rowMajor_val_three]
    rfl)

/-- The document's tile row `[1, 180, 128]` viewed as `[180, 128]`: entry (s, dd) is entry (0, s, dd). -/
theorem doc_view_apply (d : FVec Ideal S1x180x128 .f32) (s : Fin 180) (dd : Fin 128) :
    shapeCast S180x128 d shapeCasts_S1x180x128_S180x128 (ix2 s dd) = d (ix3 (0 : Fin 1) s dd) :=
  shapeCast_apply d shapeCasts_S1x180x128_S180x128 (ix2 s dd) (ix3 (0 : Fin 1) s dd) (by
    rw [Shape.rowMajor_val_two, Shape.rowMajor_val_three]
    show ((0 : Fin 1).val * 180 + s.val) * 128 + dd.val = s.val * 128 + dd.val
    simp)

/-! ## One document's numbers -/

/-- The largest inner product of query row `r` with the document's 180 token rows, from −∞. -/
def rowMax (qb : FVec Ideal S512x128 .bf16) (d : FVec Ideal S1x180x128 .f32) (r : Fin 512) : EReal :=
  (Finset.univ : Finset (Fin 180)).fold max (FloatOps.ofBits (F := Ideal) .f32 0xFF800000#32)
    (fun s => ∑ dd : Fin 128, qb (ix2 r dd) * d (ix3 (0 : Fin 1) s dd))

end Cert.KernelIdeal.Column

end
-- ==== Proof.DocNumber.lean ====
/-
  One document's number for one query, over the extended reals: the sum over the query's 32 token rows of the row's
  best match among the document's 180 token rows. The two reductions are read as a sum and as a fold of `max`, each
  over the one axis it removes; the index the reductions insert back is (q, mm, s), and through the row-major view
  that is row `32 q + mm`, column `s`, of the matrix of inner products.
-/
import proofs.«158030_j63239098466666_1_alg».proof.Proof.DocValue
import Idealize.ShloMosaic.PureOps.Ideal.Laws
import Idealize.ShloMosaic.Lib.Pipeline.Value
import Idealize.ShloMosaic.Lib.ValueIdx

noncomputable section

namespace Cert.KernelIdeal.Column

open Cert.KernelIdeal Cert.KernelIdeal.Gen Idealize.ShloMosaic Idealize.ShloMosaic.ValueIdx

/-- THE DOCUMENT'S NUMBER FOR QUERY `q`: the sum over the query's 32 tokens of the token row's best match. -/
theorem docScore_apply (qb : FVec Ideal S512x128 .bf16) (d : FVec Ideal S1x180x128 .f32) (q : Fin 16) :
    docScore (F := Ideal) qb d (ix1 q) = ∑ mm : Fin 32, rowMax qb d ⟨q.val * 32 + mm.val, by omega⟩ := by
  unfold docScore
  -- the sum over the 32 query tokens
  refine (Ideal.multiReduction_add_single _ 0x00000000#32 reduces_S16x32_S16 (.inl rfl) rfl (ix1 q)).trans ?_
  refine Finset.sum_congr rfl (fun (mm : Fin 32) _ => ?_)
  -- the maximum over the 180 document tokens, from −∞
  refine (Ideal.multiReduction_maximumf_single (φ := .f32) _ 0xFF800000#32 reduces_S16x32x180_S16x32 (.inl rfl) rfl _).trans ?_
  unfold rowMax
  refine congrArg (Finset.fold max _ · Finset.univ) (funext fun (s : Fin 180) => ?_)
  -- the index the two reductions put back is (q, mm, s)
  have hj : reduces_S16x32x180_S16x32.lift (reduces_S16x32_S16.lift (ix1 q) mm) s = ix3 q mm s := funext fun a => Fin.ext (by
    match a with
    | ⟨0, _⟩ => rfl
    | ⟨1, _⟩ => rfl
    | ⟨2, _⟩ => rfl)
  show shapeCast S16x32x180 _ shapeCasts_S512x180_S16x32x180 (reduces_S16x32x180_S16x32.lift (reduces_S16x32_S16.lift (ix1 q) mm) s) = _
  rw [hj, tokens_view_apply, product_apply]
  -- the document's rows: the cast to bf16 and the view of the tile row change no entry
  refine Finset.sum_congr rfl fun dd _ => ?_
  rw [truncf_apply, doc_view_apply]

end Cert.KernelIdeal.Column

end
-- ==== Proof.Score.lean ====
/-
  The late-interaction score of a query against a document. A query is 32 token vectors of 128 features, a document
  180 of them. Every query token takes the largest of its inner products with the document's tokens, and the 32 maxima
  are added:

      score[q, k] = Σ_m  max_s  Σ_d  Q[q, m, d] · D[k, s, d]        (q < 16, k < 2048, m < 32, s < 180, d < 128),

  over the extended reals. The maximum over the 180 document tokens is the fold of `max` from −∞, written as the f32
  word `0xFF800000` that both programs start their running maximum from; the word is carried, never evaluated.
  Nothing here needs the entries to be finite: sums and products of extended reals commute and associate everywhere.
-/
import Idealize.ShloMosaic.PureOps.Ideal
import Idealize.ShloMosaic.Lib.ValueIdx

noncomputable section

namespace Cert.MaxSim

open Idealize.ShloMosaic Idealize.ShloMosaic.ValueIdx

/-- The query array, `[16, 32, 128]`: query, token, feature. -/
abbrev QShape : Shape := ⟨3, ![16, 32, 128]⟩
/-- The document array, `[2048, 180, 128]`: document, token, feature. -/
abbrev DShape : Shape := ⟨3, ![2048, 180, 128]⟩
/-- The score array, `[16, 2048]`: query, document. -/
abbrev OShape : Shape := ⟨2, ![16, 2048]⟩

/-- The inner product, over the 128 features, of token `mm` of query `q` with token `s` of document `k`. -/
def tokenDot (Q : QShape.Idx → EReal) (D : DShape.Idx → EReal) (q : Fin 16) (mm : Fin 32) (k : Fin 2048) (s : Fin 180) : EReal :=
  ∑ d : Fin 128, Q (ix3 q mm d) * D (ix3 k s d)

/-- The best match of query token `(q, mm)` in document `k`: the largest of its 180 inner products, from −∞. -/
def tokenMax (Q : QShape.Idx → EReal) (D : DShape.Idx → EReal) (q : Fin 16) (mm : Fin 32) (k : Fin 2048) : EReal :=
  (Finset.univ : Finset (Fin 180)).fold max (FloatOps.ofBits (F := Ideal) .f32 0xFF800000#32) (fun s => tokenDot Q D q mm k s)

/-- The score of query `q` against document `k`: the sum over the query's 32 tokens of their best matches. -/
def scoreAt (Q : QShape.Idx → EReal) (D : DShape.Idx → EReal) (q : Fin 16) (k : Fin 2048) : EReal :=
  ∑ mm : Fin 32, tokenMax Q D q mm k

/-- The whole score array, index by index. -/
def score (Q : QShape.Idx → EReal) (D : DShape.Idx → EReal) : OShape.Idx → EReal :=
  fun i => scoreAt Q D ⟨(i 0).val, (i 0).isLt⟩ ⟨(i 1).val, (i 1).isLt⟩

theorem score_ix2 (Q : QShape.Idx → EReal) (D : DShape.Idx → EReal) (q : Fin 16) (k : Fin 2048) :
    score Q D (ix2 q k) = scoreAt Q D q k := rfl

end Cert.MaxSim

end
-- ==== Proof.Blocks.lean ====
/-
  From the blocks to the array. The grid has 16 steps. Step `t` sees all 512 query token rows (the same block every
  step: the query array viewed as 512 × 128, row `32 q + mm` being token `mm` of query `q`) and documents
  `128 t … 128 t + 127` (its tile of the document array), and writes columns `128 t … 128 t + 127` of the 16 × 2048
  result. Column `l` of the step's block is document `128 t + l`'s number for each query, so the block is the score
  array's block; the 16 blocks tile the array (column k lies in step k / 128's), so the array ends holding the score.
-/
import proofs.«158030_j63239098466666_1_alg».proof.Proof.DocNumber
import proofs.«158030_j63239098466666_1_alg».proof.Proof.Score
import Idealize.ShloMosaic.Lib.Pipeline.Value
import Idealize.ShloMosaic.Lib.StableHlo.Run
import Idealize.ShloMosaic.Lib.ValueIdx
import Mathlib.Tactic.FinCases

noncomputable section

namespace Cert.KernelIdeal.Blocks

open Cert.KernelIdeal Cert.KernelIdeal.Gen Cert.KernelIdeal.Column Cert.MaxSim
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps, decided over the 16 steps: the query rows' block never moves; the document tile and the
    output block move with the step along their first and second axis. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

theorem step_lt (t : Fin cfg0.N) : t.val < 16 := lt_of_lt_of_eq t.isLt N_0

/-! ## The two input blocks -/

/-- The query rows as the kernel finds them: the query array viewed as 512 × 128. -/
theorem queryRows (c : Dev nD) : (V m c main_v0 : S512x128.Idx → EReal)
    = shapeCast S512x128 (m ((c : Thread nD τ).loc main_arg0) : S16x32x128.Idx → EReal) shapeCasts_S16x32x128_S512x128 := by
  dsimp only [Gen.V, Gen.hostOps0]
  after_results
  rfl

/-- The query rows' block at step `t`. -/
abbrev qBlock (c : Dev nD) (t : Fin cfg0.N) : Vec Ideal S512x128 .f32 := iblk m c 0 t
/-- The document tile at step `t`. -/
abbrev dBlock (c : Dev nD) (t : Fin cfg0.N) : Vec Ideal S128x180x128 .f32 := iblk m c 1 t

/-- Row `32 q + mm` of the query rows' block is token `mm` of query `q`, at every step. -/
theorem qBlock_apply (c : Dev nD) (t : Fin cfg0.N) (q : Fin 16) (mm : Fin 32) (dd : Fin 128) :
    qBlock m c t (ix2 (⟨q.val * 32 + mm.val, by omega⟩ : Fin 512) dd)
      = (m ((c : Thread nD τ).loc main_arg0) : S16x32x128.Idx → EReal) (ix3 q mm dd) := by
  obtain ⟨e0, e1, -⟩ := idx_facts t
  have he : ((cfg0.win 0).blk t).view.emb (ix2 (⟨q.val * 32 + mm.val, by omega⟩ : Fin 512) dd)
      = ix2 (⟨q.val * 32 + mm.val, by omega⟩ : Fin 512) dd := by
    funext a; apply Fin.ext
    match a with
    | ⟨0, _⟩ => show win0_0.index t (0 : Fin 2) * 512 + 1 * (q.val * 32 + mm.val) = q.val * 32 + mm.val; omega
    | ⟨1, _⟩ => show win0_0.index t (1 : Fin 2) * 128 + 1 * dd.val = dd.val; omega
  show V m c main_v0 (((cfg0.win 0).blk t).view.emb (ix2 (⟨q.val * 32 + mm.val, by omega⟩ : Fin 512) dd)) = _
  rw [he, queryRows]
  exact shapeCast_apply _ shapeCasts_S16x32x128_S512x128 _ (ix3 q mm dd) (by
    rw [Shape.rowMajor_val_three, Shape.rowMajor_val_two]
    rfl)

/-- Row `l` of the document tile at step `t` is document `128 t + l`. -/
theorem dBlock_row_apply (c : Dev nD) (t : Fin cfg0.N) (l : Fin 128) (s : Fin 180) (dd : Fin 128) :
    View.ld (dBlock m c t) (docRect l) (ix3 (0 : Fin 1) s dd)
      = (m ((c : Thread nD τ).loc main_arg1) : S2048x180x128.Idx → EReal)
          (ix3 (⟨t.val * 128 + l.val, by have := step_lt t; omega⟩ : Fin 2048) s dd) := by
  obtain ⟨-, -, e2, e3, e4, -⟩ := idx_facts t
  show V m c main_arg1 (((cfg0.win 1).blk t).view.emb ((docRect l).emb (ix3 (0 : Fin 1) s dd))) = _
  rw [V_main_arg1]
  refine congrArg _ (funext fun a => Fin.ext ?_)
  match a with
  | ⟨0, _⟩ => show win0_1.index t (0 : Fin 3) * 128 + 1 * (l.val + 1 * 0) = t.val * 128 + l.val; omega
  | ⟨1, _⟩ => show win0_1.index t (1 : Fin 3) * 180 + 1 * (0 + 1 * s.val) = s.val; omega
  | ⟨2, _⟩ => show win0_1.index t (2 : Fin 3) * 128 + 1 * (0 + 1 * dd.val) = dd.val; omega

/-- The body's one cast of the query rows (loaded whole, viewed as themselves, cast to bf16) changes no entry. -/
theorem queryCast_apply (X0 : Vec Ideal S512x128 .f32) (i : S512x128.Idx) :
    k0_pay1 (F := Ideal) (View.ld X0 r0_0) i = X0 i := by
  unfold k0_pay1
  rw [truncf_apply, shapeCast_self, View.ld_unit_zero zeroOffsets]

/-! ## What a step writes back -/

/-- STEP `t` WRITES BACK block `t` of the score array of the two argument arrays. -/
theorem flushed_eq (c : Dev nD) (t : Fin cfg0.N) :
    (dats m 0 c).flushed 2 t = ((cfg0.win 2).blk t).view.read (Elt Ideal)
      (score (m ((c : Thread nD τ).loc main_arg0)) (m ((c : Thread nD τ).loc main_arg1))) := by
  rw [ValueP.flushed2]
  obtain ⟨-, -, -, -, -, e5, e6⟩ := idx_facts t
  have ht := step_lt t
  funext j
  obtain ⟨q, l, rfl⟩ : ∃ (q : Fin 16) (l : Fin 128), j = ix2 q l := ⟨j 0, j 1, eq_ix2 j⟩
  have he : ((cfg0.win 2).blk t).view.emb (ix2 q l) = ix2 q (⟨t.val * 128 + l.val, by omega⟩ : Fin 2048) := by
    funext a; apply Fin.ext
    match a with
    | ⟨0, _⟩ => show win0_2.index t (0 : Fin 2) * 16 + 1 * q.val = q.val; omega
    | ⟨1, _⟩ => show win0_2.index t (1 : Fin 2) * 128 + 1 * l.val = t.val * 128 + l.val; omega
  show out0_2 (qBlock m c t) (dBlock m c t) (ix2 q l)
    = score (m ((c : Thread nD τ).loc main_arg0)) (m ((c : Thread nD τ).loc main_arg1)) (((cfg0.win 2).blk t).view.emb (ix2 q l))
  rw [he, score_ix2]
  -- column l of the block is one document's numbers; query q's is the sum over its tokens of their best matches
  refine (out_apply (qBlock m c t) (dBlock m c t) q l).trans ?_
  refine (docScore_apply _ _ q).trans ?_
  unfold scoreAt
  refine Finset.sum_congr rfl fun mm _ => ?_
  unfold rowMax tokenMax
  refine congrArg (Finset.fold max _ · Finset.univ) (funext fun (s : Fin 180) => ?_)
  unfold tokenDot
  refine Finset.sum_congr rfl fun dd _ => ?_
  rw [dBlock_row_apply, queryCast_apply, qBlock_apply]

/-! ## The blocks tile the array -/

/-- An index of the array is in step `t`'s block iff each coordinate is in the block's range on its axis. -/
theorem mem_blk (t : Fin cfg0.N) (i : S16x2048.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v1).slice (win0_2.rect t)).set ↔ _
  rw [View.set_slice_whole, Rect.mem_set_unit]
  exact Iff.rfl

/-- Every entry of the array is in some step's block: column `k` in step `k / 128`'s. -/
theorem cover (i : S16x2048.Idx) : ∃ t : Fin cfg0.N, (cfg0.win 2).flush t = true ∧ i ∈ ((cfg0.win 2).blk t).view.set := by
  have hi0 : (i 0).val < 16 := (i 0).isLt
  have hi1 : (i 1).val < 2048 := (i 1).isLt
  have hlt : (i 1).val / 128 < cfg0.N := by show (i 1).val / 128 < grid0.N; rw [N_0]; omega
  obtain ⟨-, -, -, -, -, e5, e6⟩ := idx_facts ⟨(i 1).val / 128, hlt⟩
  have e6' : win0_2.index ⟨(i 1).val / 128, hlt⟩ (1 : Fin 2) = (i 1).val / 128 := e6
  refine ⟨⟨(i 1).val / 128, hlt⟩, flush0_2 _, ?_⟩
  rw [mem_blk]
  intro a
  match a with
  | ⟨0, _⟩ =>
    show win0_2.index ⟨(i 1).val / 128, hlt⟩ (0 : Fin 2) * 16 ≤ (i 0).val ∧ (i 0).val < win0_2.index ⟨(i 1).val / 128, hlt⟩ (0 : Fin 2) * 16 + 16
    omega
  | ⟨1, _⟩ =>
    show win0_2.index ⟨(i 1).val / 128, hlt⟩ (1 : Fin 2) * 128 ≤ (i 1).val ∧ (i 1).val < win0_2.index ⟨(i 1).val / 128, hlt⟩ (1 : Fin 2) * 128 + 128
    omega

/-- THE ARRAY after the run is the score array of the two argument arrays. -/
theorem final (c : Dev nD) : (dats m 0 c).arrAt 2 cfg0.N
    = score (m ((c : Thread nD τ).loc main_arg0)) (m ((c : Thread nD τ).loc main_arg1)) :=
  (dats m 0 c).arrAt_eq_of_cover 2 _ (fun t _ => flushed_eq m c t) cover

/-- The kernel's run: every weakly fair execution terminates with the result at the score array of the arguments and
    the arguments unchanged. -/
theorem run : θ_run defs (onTc (τ := τ) (main (F := Ideal))) ⟨m, fun _ => 0, ρ⟩ fun r => ∀ c : Dev nD,
      r.2.mem ((c : Thread nD τ).loc main_v1) = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.Blocks

end
-- ==== Proof.RefValue.lean ====
/-
  The reference computes the score. It forms all inner products at once, `sim[k, s, q, mm] = Σ_d D[k, s, d] · Q[q, mm, d]`,
  reorders them to `[q, k, mm, s]`, takes the maximum over the document tokens `s` from −∞ and adds over the query
  tokens `mm` from zero. Read at an entry (q, k) this is `score`: the products are the specification's with the two
  factors exchanged, which is the one law used here — multiplication of extended reals commutes, at the infinities too.
-/
import proofs.«158030_j63239098466666_1_alg».proof.Proof.Gen.ReferenceIdeal.Read
import proofs.«158030_j63239098466666_1_alg».proof.Proof.Score
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.MaxSim

/-- Dropping the last axis of `[16, 2048, 32, 180]` leaves `[16, 2048, 32]`. -/
theorem dropTokens : S16x2048x32x180.Reduces [3] S16x2048x32 := by decide

/-- One reordered inner product: entry (q, k, mm, s) is the inner product of token `mm` of query `q` with token `s` of
    document `k`. -/
theorem sim_apply (Q : (⟨S16x32x128, .f32⟩ : BufTy).Contents (Elt Ideal)) (D : (⟨S2048x180x128, .f32⟩ : BufTy).Contents (Elt Ideal))
    (q : Fin 16) (k : Fin 2048) (mm : Fin 32) (s : Fin 180) :
    val_main_v1 (F := Ideal) Q D (ix4 q k mm s) = tokenDot Q D q mm k s := by
  rw [val_main_v1_apply, val_main_v0_apply]
  unfold tokenDot
  refine Finset.sum_congr rfl fun dd _ => ?_
  have el : lidx_main_v0 (idx_main_v1 (ix4 q k mm s)) dd = ix3 k s dd := funext fun a => by
    match a with
    | ⟨0, _⟩ => rfl
    | ⟨1, _⟩ => rfl
    | ⟨2, _⟩ => rfl
  have er : ridx_main_v0 (idx_main_v1 (ix4 q k mm s)) dd = ix3 q mm dd := funext fun a => by
    match a with
    | ⟨0, _⟩ => rfl
    | ⟨1, _⟩ => rfl
    | ⟨2, _⟩ => rfl
  rw [el, er]
  exact mul_comm _ _

/-- The maximum over the document tokens: entry (q, k, mm) is the best match of query token (q, mm) in document k. -/
theorem max_apply (Q : (⟨S16x32x128, .f32⟩ : BufTy).Contents (Elt Ideal)) (D : (⟨S2048x180x128, .f32⟩ : BufTy).Contents (Elt Ideal))
    (q : Fin 16) (k : Fin 2048) (mm : Fin 32) :
    val_main_v2 (F := Ideal) Q D (ix3 q k mm) = tokenMax Q D q mm k := by
  unfold val_main_v2
  refine (Host.reduce_eq_fold_single (FloatOps.maximumf (F := Ideal) (φ := .f32)) (val_main_v1 (F := Ideal) Q D) (val_main_cst (F := Ideal))
    reducesTo_S16x2048x32x180_S16x2048x32_d3 dropTokens h_S_ (ix3 q k mm)).trans ?_
  unfold tokenMax
  refine congrArg (Finset.fold max _ · Finset.univ) (funext fun (s : Fin 180) => ?_)
  have hj : dropTokens.lift (ix3 q k mm) s = ix4 q k mm s := funext fun a => Fin.ext (by
    match a with
    | ⟨0, _⟩ => rfl
    | ⟨1, _⟩ => rfl
    | ⟨2, _⟩ => rfl
    | ⟨3, _⟩ => rfl)
  show val_main_v1 (F := Ideal) Q D (dropTokens.lift (ix3 q k mm) s) = _
  rw [hj, sim_apply]

/-- THE REFERENCE'S RESULT IS THE SCORE, entry by entry. -/
theorem reference_eq (Q : (⟨S16x32x128, .f32⟩ : BufTy).Contents (Elt Ideal)) (D : (⟨S2048x180x128, .f32⟩ : BufTy).Contents (Elt Ideal)) :
    val_main_v3 (F := Ideal) Q D = score Q D := by
  funext i
  obtain ⟨q, k, rfl⟩ : ∃ (q : Fin 16) (k : Fin 2048), i = ix2 q k := ⟨i 0, i 1, eq_ix2 i⟩
  rw [val_main_v3_apply, score_ix2, val_main_cst_0_apply]
  unfold scoreAt
  show Ideal.ofBits .f32 0x00000000#32 + _ = _
  rw [Ideal.ofBits_zero_f32, zero_add]
  refine Finset.sum_congr rfl fun mm _ => ?_
  have e : idx_main_v3 (ix2 q k) mm = ix3 q k mm := funext fun a => by
    match a with
    | ⟨0, _⟩ => rfl
    | ⟨1, _⟩ => rfl
    | ⟨2, _⟩ => rfl
  rw [e, max_apply]

end Cert.ReferenceIdeal.RefValue

end
-- ==== Proof.lean ====
/-
  The late-interaction ("MaxSim") score, kernel against reference. For 16 queries of 32 token vectors and 2048
  documents of 180 token vectors, all of 128 features,

      score[q, k] = Σ_m  max_s  Σ_d  Q[q, m, d] · D[k, s, d].

  The kernel lays the 16 × 32 query tokens out as 512 rows and walks the documents in 16 tiles of 128; for each
  document of a tile it multiplies the 512 rows into the document's 180 rows, takes each row's largest entry and adds
  the 32 maxima of each query; the 128 results of a tile are the tile's 128 columns of the 16 × 2048 result. The
  reference forms every inner product at once, reorders them, takes the maximum over the document tokens and adds over
  the query tokens. Over the extended reals both are `score` (Proof/Score.lean): the kernel's casts to bf16 change
  nothing there, a matrix product from a zero accumulator and the host's contraction are the same sum of products, and
  the two programs start their maxima from the same −∞ and their sums from zero. The one law that joins the two sides
  is that a product of extended reals does not depend on the order of its factors (the kernel multiplies query by
  document, the reference document by query); it holds at the infinities as well, so the inputs' finiteness is never
  used.

  The modules: Score (the specification); DocColumn (the body's output block, column by column, is one function of
  the query rows and one document); DocValue, DocNumber (that function over the extended reals); Blocks (from the 16
  blocks to the whole array, and the kernel's run); RefValue (the reference's result is the score). Here the claims
  are assembled: the three programs run and keep their arguments; the idealized kernel is the kernel's own text read
  over the extended reals (no rewrite was applied, so there is nothing to preserve); and the two idealized programs,
  from memories agreeing on the arguments, end with equal results.
-/
import proofs.«158030_j63239098466666_1_alg».proof.Defs
import proofs.«158030_j63239098466666_1_alg».proof.Proof.Gen.Kernel
import proofs.«158030_j63239098466666_1_alg».proof.Proof.Gen.Kernel.Skeleton
import proofs.«158030_j63239098466666_1_alg».proof.Proof.Gen.Kernel.Launch
import proofs.«158030_j63239098466666_1_alg».proof.Proof.Gen.Kernel.Points
import proofs.«158030_j63239098466666_1_alg».proof.Proof.Gen.Kernel.Frame
import proofs.«158030_j63239098466666_1_alg».proof.Proof.Gen.KernelIdeal
import proofs.«158030_j63239098466666_1_alg».proof.Proof.Gen.KernelIdeal.Skeleton
import proofs.«158030_j63239098466666_1_alg».proof.Proof.Gen.KernelIdeal.Launch
import proofs.«158030_j63239098466666_1_alg».proof.Proof.Gen.KernelIdeal.Points
import proofs.«158030_j63239098466666_1_alg».proof.Proof.Gen.KernelIdeal.Frame
import proofs.«158030_j63239098466666_1_alg».proof.Proof.Gen.ReferenceIdeal
import proofs.«158030_j63239098466666_1_alg».proof.Proof.Gen.Pre_finite_inputs
import proofs.«158030_j63239098466666_1_alg».proof.Proof.KernelIdealValue
import proofs.«158030_j63239098466666_1_alg».proof.Proof.Gen.ReferenceIdeal.Run
import proofs.«158030_j63239098466666_1_alg».proof.Proof.Gen.ReferenceIdeal.Read
import proofs.«158030_j63239098466666_1_alg».proof.Proof.Blocks
import proofs.«158030_j63239098466666_1_alg».proof.Proof.RefValue
import Idealize.ShloMosaic.Adequacy
import Idealize.ShloMosaic.Init

noncomputable section

namespace Cert.Proof

open Idealize.ShloMosaic Idealize.SL.Sem Cert.Kernel

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the arguments, the kernel's result array and the reference's both end at the score array
    of the arguments. -/
theorem algebraic : Cert.algebraic_KernelIdeal_ReferenceIdeal := by
  intro m ρ m' ρ' _ hagree
  refine ⟨fun c => Cert.MaxSim.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
